-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024x1024 .f32) (main_arg13 : FVec F S1024x1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S1x1024 : Shape := ⟨2, ![1, 1024]⟩

abbrev nBuf : Space → Nat
  | .hbm => 25
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4096, .f32⟩
  | .hbm, ⟨16, _⟩ => ⟨S1024x4096, .bf16⟩
  | .hbm, ⟨17, _⟩ => ⟨S1024x4096, .f32⟩
  | .hbm, ⟨18, _⟩ => ⟨S1024x4096, .bf16⟩
  | .hbm, ⟨19, _⟩ => ⟨S4096, .f32⟩
  | .hbm, ⟨20, _⟩ => ⟨S1x4096, .f32⟩
  | .hbm, ⟨21, _⟩ => ⟨S4096x1024, .bf16⟩
  | .hbm, ⟨22, _⟩ => ⟨S4096x1024, .bf16⟩
  | .hbm, ⟨23, _⟩ => ⟨S4096x1024, .f32⟩
  | .hbm, ⟨24, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  slices_S1024x4096_o0_0_S1024x1024 : S1024x4096.Slices ![0, 0] S1024x1024
  slices_S1x4096_o0_0_S1x1024 : S1x4096.Slices ![0, 0] S1x1024
  broadcasts_S1x1024_S256x1024 : S1x1024.Broadcasts S256x1024
  slices_S1024x4096_o0_1024_S1024x1024 : S1024x4096.Slices ![0, 1024] S1024x1024
  slices_S1x4096_o0_1024_S1x1024 : S1x4096.Slices ![0, 1024] S1x1024
  slices_S1024x4096_o0_2048_S1024x1024 : S1024x4096.Slices ![0, 2048] S1024x1024
  slices_S1x4096_o0_2048_S1x1024 : S1x4096.Slices ![0, 2048] S1x1024
  slices_S1024x4096_o0_3072_S1024x1024 : S1024x4096.Slices ![0, 3072] S1024x1024
  slices_S1x4096_o0_3072_S1x1024 : S1x4096.Slices ![0, 3072] S1x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .bf16 = 32 ∨ (Rect.block (s := S4096x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v6) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4096, .f32⟩
  | .hbm, ⟨16, _⟩ => ⟨S1024x4096, .f32⟩
  | .hbm, ⟨17, _⟩ => ⟨S4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.FrameK.lean ====
/-
  The frame of the program: it runs to the end, faults nowhere, and leaves its fifteen argument arrays unchanged.

  @main is eight host operations (three concatenations fusing the per-gate weight matrices and biases, their roundings to
  bf16, a reshape of the fused bias to one row, the roundings of the input and the hidden state) and then one pipelined
  region over sixteen blocks of 256 batch rows. The region stages eight windows: the input, hidden and cell blocks of the
  point (windows 0–2), the two fused weight matrices and the bias row whole and fetched once (windows 3–5), and the two
  output blocks (windows 6, 7). The body loads its six input windows whole, computes, and stores each output window
  whole; so after the body an output buffer holds the one stored value, a function of the six input blocks (`outH`,
  `outC`), and every input buffer still holds its block. With these as the pipeline's proof data the library's launch
  theorem gives the run, in which every array of the pipeline ends at what the blocks written back make of it and every
  other buffer as the region found it; no host operation writes an argument, and the one argument the region stages
  (the cell state) is an input, so the arguments end as launched.

  Everything here is generic in the float instance: the word-level program and the idealized one are the same text.
-/
import proofs.«111780_j29686813950554_1_alg».proof.Proof.Gen.Kernel.Launch
import proofs.«111780_j29686813950554_1_alg».proof.Proof.Gen.Kernel.Skeleton
import proofs.«111780_j29686813950554_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the eight host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is its host operations, then the region, entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched window's
    block index has not moved), for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post, read at the
    argument arrays, is the frame claim's post: the cell state is a staged input, the other arguments are staged by no
    window, and no host operation writes either kind. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses: each window whole -/

abbrev rA : Rect S256x1024 := Rect.unit (s := S256x1024) ![0, 0] S256x1024.size inb_S256x1024_S256x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-! ## What the body leaves in each output window's buffer -/

/-- The new cell state's stored value, from the six input blocks. -/
def cellPay (x0 x1 : Vec F S256x1024 .bf16) (x2 : Vec F S256x1024 .f32) (x3 x4 : Vec F S1024x4096 .bf16) (x5 : Vec F S1x4096 .f32) : FVec F S256x1024 .f32 :=
  k0_pay1 (View.ld x2 rA) (k0_pay8 (View.ld x0 rA) (View.ld x1 rA) (View.ld x3 rW) (View.ld x4 rW) (View.ld x5 rB)) (k0_pay9 (View.ld x0 rA) (View.ld x1 rA) (View.ld x3 rW) (View.ld x4 rW) (View.ld x5 rB)) (k0_pay10 (View.ld x0 rA) (View.ld x1 rA) (View.ld x3 rW) (View.ld x4 rW) (View.ld x5 rB))

/-- The hidden-state output buffer after the body: its one store, of the whole block. -/
def outH (x0 x1 : Vec F S256x1024 .bf16) (x2 : Vec F S256x1024 .f32) (x3 x4 : Vec F S1024x4096 .bf16) (x5 : Vec F S1x4096 .f32) : Vec F S256x1024 .f32 :=
  View.canon [⟨rA, k0_pay2 (k0_pay4 (View.ld x1 rA)) (View.ld x2 rA) (k0_pay8 (View.ld x0 rA) (View.ld x1 rA) (View.ld x3 rW) (View.ld x4 rW) (View.ld x5 rB)) (k0_pay9 (View.ld x0 rA) (View.ld x1 rA) (View.ld x3 rW) (View.ld x4 rW) (View.ld x5 rB)) (k0_pay10 (View.ld x0 rA) (View.ld x1 rA) (View.ld x3 rW) (View.ld x4 rW) (View.ld x5 rB)) (k0_pay11 (View.ld x4 rW)) (k0_pay12 (View.ld x5 rB)) (k0_pay13 (View.ld x0 rA) (View.ld x3 rW)) (constant S256x1024 .f32 0x00000000#32)⟩]

/-- The cell-state output buffer after the body: its one store, of the whole block. -/
def outC (x0 x1 : Vec F S256x1024 .bf16) (x2 : Vec F S256x1024 .f32) (x3 x4 : Vec F S1024x4096 .bf16) (x5 : Vec F S1x4096 .f32) : Vec F S256x1024 .f32 :=
  View.canon [⟨rA, cellPay x0 x1 x2 x3 x4 x5⟩]

/-- One store of the whole block covers the buffer. -/
theorem coverA (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 4000000 in
/-- The kernel body on whole staging memrefs, the six inputs' at contents `x0 … x5` and the two outputs' at anything, runs
    to the continuation holding the inputs' as they were and the outputs' at `outH` and `outC` of the inputs'. -/
theorem sound_kernel (c : Dev nD) (E : Set ℕ) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 x1 : Vec F S256x1024 .bf16) (x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverA _)
  iexists _; isplitr
  swap; · iexact H7
  ipureintro
  try dsimp only
  exact View.read_writes_eq_canon _ _ _ (coverA _)

/-! ## The pipeline's proof data -/

/-- The proof data of the pipeline on core `c`: the arrays as the region finds them; after the body at point `t` each
    input's buffer at its block and each output's at its stored value of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outH (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the blocks written back make of it and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its fifteen argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Fr

end
-- ==== Proof.FrameKI.lean ====
/-
  The frame of the program: it runs to the end, faults nowhere, and leaves its fifteen argument arrays unchanged.

  @main is eight host operations (three concatenations fusing the per-gate weight matrices and biases, their roundings to
  bf16, a reshape of the fused bias to one row, the roundings of the input and the hidden state) and then one pipelined
  region over sixteen blocks of 256 batch rows. The region stages eight windows: the input, hidden and cell blocks of the
  point (windows 0–2), the two fused weight matrices and the bias row whole and fetched once (windows 3–5), and the two
  output blocks (windows 6, 7). The body loads its six input windows whole, computes, and stores each output window
  whole; so after the body an output buffer holds the one stored value, a function of the six input blocks (`outH`,
  `outC`), and every input buffer still holds its block. With these as the pipeline's proof data the library's launch
  theorem gives the run, in which every array of the pipeline ends at what the blocks written back make of it and every
  other buffer as the region found it; no host operation writes an argument, and the one argument the region stages
  (the cell state) is an input, so the arguments end as launched.

  Everything here is generic in the float instance: the word-level program and the idealized one are the same text.
-/
import proofs.«111780_j29686813950554_1_alg».proof.Proof.Gen.KernelIdeal.Launch
import proofs.«111780_j29686813950554_1_alg».proof.Proof.Gen.KernelIdeal.Skeleton
import proofs.«111780_j29686813950554_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the eight host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is its host operations, then the region, entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched window's
    block index has not moved), for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post, read at the
    argument arrays, is the frame claim's post: the cell state is a staged input, the other arguments are staged by no
    window, and no host operation writes either kind. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses: each window whole -/

abbrev rA : Rect S256x1024 := Rect.unit (s := S256x1024) ![0, 0] S256x1024.size inb_S256x1024_S256x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-! ## What the body leaves in each output window's buffer -/

/-- The new cell state's stored value, from the six input blocks. -/
def cellPay (x0 x1 : Vec F S256x1024 .bf16) (x2 : Vec F S256x1024 .f32) (x3 x4 : Vec F S1024x4096 .bf16) (x5 : Vec F S1x4096 .f32) : FVec F S256x1024 .f32 :=
  k0_pay1 (View.ld x2 rA) (k0_pay8 (View.ld x0 rA) (View.ld x1 rA) (View.ld x3 rW) (View.ld x4 rW) (View.ld x5 rB)) (k0_pay9 (View.ld x0 rA) (View.ld x1 rA) (View.ld x3 rW) (View.ld x4 rW) (View.ld x5 rB)) (k0_pay10 (View.ld x0 rA) (View.ld x1 rA) (View.ld x3 rW) (View.ld x4 rW) (View.ld x5 rB))

/-- The hidden-state output buffer after the body: its one store, of the whole block. -/
def outH (x0 x1 : Vec F S256x1024 .bf16) (x2 : Vec F S256x1024 .f32) (x3 x4 : Vec F S1024x4096 .bf16) (x5 : Vec F S1x4096 .f32) : Vec F S256x1024 .f32 :=
  View.canon [⟨rA, k0_pay2 (k0_pay4 (View.ld x1 rA)) (View.ld x2 rA) (k0_pay8 (View.ld x0 rA) (View.ld x1 rA) (View.ld x3 rW) (View.ld x4 rW) (View.ld x5 rB)) (k0_pay9 (View.ld x0 rA) (View.ld x1 rA) (View.ld x3 rW) (View.ld x4 rW) (View.ld x5 rB)) (k0_pay10 (View.ld x0 rA) (View.ld x1 rA) (View.ld x3 rW) (View.ld x4 rW) (View.ld x5 rB)) (k0_pay11 (View.ld x4 rW)) (k0_pay12 (View.ld x5 rB)) (k0_pay13 (View.ld x0 rA) (View.ld x3 rW)) (constant S256x1024 .f32 0x00000000#32)⟩]

/-- The cell-state output buffer after the body: its one store, of the whole block. -/
def outC (x0 x1 : Vec F S256x1024 .bf16) (x2 : Vec F S256x1024 .f32) (x3 x4 : Vec F S1024x4096 .bf16) (x5 : Vec F S1x4096 .f32) : Vec F S256x1024 .f32 :=
  View.canon [⟨rA, cellPay x0 x1 x2 x3 x4 x5⟩]

/-- One store of the whole block covers the buffer. -/
theorem coverA (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 4000000 in
/-- The kernel body on whole staging memrefs, the six inputs' at contents `x0 … x5` and the two outputs' at anything, runs
    to the continuation holding the inputs' as they were and the outputs' at `outH` and `outC` of the inputs'. -/
theorem sound_kernel (c : Dev nD) (E : Set ℕ) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 x1 : Vec F S256x1024 .bf16) (x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverA _)
  iexists _; isplitr
  swap; · iexact H7
  ipureintro
  try dsimp only
  exact View.read_writes_eq_canon _ _ _ (coverA _)

/-! ## The pipeline's proof data -/

/-- The proof data of the pipeline on core `c`: the arrays as the region finds them; after the body at point `t` each
    input's buffer at its block and each output's at its stored value of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outH (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the blocks written back make of it and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its fifteen argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Fr

end
-- ==== Proof.Spec.lean ====
/-
  The function both programs compute, index by index on the extended reals.

  One LSTM step with the four gates fused along the columns of two wide weight matrices:
  for a batch row `p` and a hidden column `q`, gate `g ∈ {0 (forget), 1 (input), 2 (candidate), 3 (output)}` has
  the pre-activation
      a_g(p, q) = (Σ_k x[p, k] · Wx[k, 1024 g + q]  +  Σ_k h[p, k] · Wh[k, 1024 g + q])  +  b[1024 g + q],
  the new cell is  σ(a_0) · c[p, q] + σ(a_1) · tanh(a_2)  and the new hidden state  σ(a_3) · tanh(new cell),
  with σ(a) = 1 / (1 + e^(-a)). The sums associate exactly as written (two dot products added, then the bias), so no
  law of the extended reals beyond the definitions is needed to join the two programs.

  The row count `n` is a parameter: the kernel computes the function on blocks of 256 rows, the reference on all
  4096 rows, and a row of a block only ever reads the same row of its operands (`gate_congr`).
-/
import Idealize.ShloMosaic.PureOps.Ideal
import Idealize.ShloMosaic.Lib.ValueIdx

noncomputable section

namespace Cert.Lstm

open Idealize.ShloMosaic Idealize.ShloMosaic.ValueIdx
open scoped BigOperators

variable {n : Nat}

/-- Column `1024 g + q` of the fused matrices: column `q` of gate `g`. -/
def col (g : Fin 4) (q : Fin 1024) : Fin 4096 := ⟨g.val * 1024 + q.val, by have := g.isLt; have := q.isLt; omega⟩

theorem col_val (g : Fin 4) (q : Fin 1024) : (col g q).val = g.val * 1024 + q.val := rfl

/-- Gate `g`'s pre-activation at row `p`, column `q`. -/
def gate (x h : (⟨2, ![n, 1024]⟩ : Shape).Idx → EReal) (Wx Wh : (⟨2, ![1024, 4096]⟩ : Shape).Idx → EReal)
    (b : Fin 4096 → EReal) (g : Fin 4) (p : Fin n) (q : Fin 1024) : EReal :=
  (∑ k : Fin 1024, x (ix2 p k) * Wx (ix2 k (col g q)) + ∑ k : Fin 1024, h (ix2 p k) * Wh (ix2 k (col g q))) + b (col g q)

/-- The new cell state at row `p`, column `q`. -/
def cellAt (x h c : (⟨2, ![n, 1024]⟩ : Shape).Idx → EReal) (Wx Wh : (⟨2, ![1024, 4096]⟩ : Shape).Idx → EReal)
    (b : Fin 4096 → EReal) (p : Fin n) (q : Fin 1024) : EReal :=
  Ideal.logistic (gate x h Wx Wh b 0 p q) * c (ix2 p q)
    + Ideal.logistic (gate x h Wx Wh b 1 p q) * Ideal.tanh (gate x h Wx Wh b 2 p q)

/-- The new hidden state at row `p`, column `q`. -/
def hiddenAt (x h c : (⟨2, ![n, 1024]⟩ : Shape).Idx → EReal) (Wx Wh : (⟨2, ![1024, 4096]⟩ : Shape).Idx → EReal)
    (b : Fin 4096 → EReal) (p : Fin n) (q : Fin 1024) : EReal :=
  Ideal.logistic (gate x h Wx Wh b 3 p q) * Ideal.tanh (cellAt x h c Wx Wh b p q)

/-- The two results as whole arrays. -/
def cellArr (x h c : (⟨2, ![n, 1024]⟩ : Shape).Idx → EReal) (Wx Wh : (⟨2, ![1024, 4096]⟩ : Shape).Idx → EReal)
    (b : Fin 4096 → EReal) : (⟨2, ![n, 1024]⟩ : Shape).Idx → EReal :=
  fun i => cellAt x h c Wx Wh b (i 0) (i 1)

def hiddenArr (x h c : (⟨2, ![n, 1024]⟩ : Shape).Idx → EReal) (Wx Wh : (⟨2, ![1024, 4096]⟩ : Shape).Idx → EReal)
    (b : Fin 4096 → EReal) : (⟨2, ![n, 1024]⟩ : Shape).Idx → EReal :=
  fun i => hiddenAt x h c Wx Wh b (i 0) (i 1)

theorem cellArr_ix2 (x h c : (⟨2, ![n, 1024]⟩ : Shape).Idx → EReal) (Wx Wh : (⟨2, ![1024, 4096]⟩ : Shape).Idx → EReal)
    (b : Fin 4096 → EReal) (p : Fin n) (q : Fin 1024) : cellArr x h c Wx Wh b (ix2 p q) = cellAt x h c Wx Wh b p q := rfl

theorem hiddenArr_ix2 (x h c : (⟨2, ![n, 1024]⟩ : Shape).Idx → EReal) (Wx Wh : (⟨2, ![1024, 4096]⟩ : Shape).Idx → EReal)
    (b : Fin 4096 → EReal) (p : Fin n) (q : Fin 1024) : hiddenArr x h c Wx Wh b (ix2 p q) = hiddenAt x h c Wx Wh b p q := rfl

/-! ## A row only reads its own row -/

variable {n' : Nat}

/-- Row `p` of one pair of operands and row `p'` of another agree entry by entry: the gates agree there. -/
theorem gate_congr (x h : (⟨2, ![n, 1024]⟩ : Shape).Idx → EReal) (x' h' : (⟨2, ![n', 1024]⟩ : Shape).Idx → EReal)
    (Wx Wh : (⟨2, ![1024, 4096]⟩ : Shape).Idx → EReal) (b : Fin 4096 → EReal) (p : Fin n) (p' : Fin n')
    (hx : ∀ k : Fin 1024, x (ix2 p k) = x' (ix2 p' k)) (hh : ∀ k : Fin 1024, h (ix2 p k) = h' (ix2 p' k))
    (g : Fin 4) (q : Fin 1024) : gate x h Wx Wh b g p q = gate x' h' Wx Wh b g p' q := by
  unfold gate
  have e1 : ∑ k : Fin 1024, x (ix2 p k) * Wx (ix2 k (col g q)) = ∑ k : Fin 1024, x' (ix2 p' k) * Wx (ix2 k (col g q)) :=
    Finset.sum_congr rfl fun k _ => by rw [hx k]
  have e2 : ∑ k : Fin 1024, h (ix2 p k) * Wh (ix2 k (col g q)) = ∑ k : Fin 1024, h' (ix2 p' k) * Wh (ix2 k (col g q)) :=
    Finset.sum_congr rfl fun k _ => by rw [hh k]
  rw [e1, e2]

theorem cellAt_congr (x h c : (⟨2, ![n, 1024]⟩ : Shape).Idx → EReal) (x' h' c' : (⟨2, ![n', 1024]⟩ : Shape).Idx → EReal)
    (Wx Wh : (⟨2, ![1024, 4096]⟩ : Shape).Idx → EReal) (b : Fin 4096 → EReal) (p : Fin n) (p' : Fin n')
    (hx : ∀ k : Fin 1024, x (ix2 p k) = x' (ix2 p' k)) (hh : ∀ k : Fin 1024, h (ix2 p k) = h' (ix2 p' k))
    (hc : ∀ k : Fin 1024, c (ix2 p k) = c' (ix2 p' k)) (q : Fin 1024) :
    cellAt x h c Wx Wh b p q = cellAt x' h' c' Wx Wh b p' q := by
  unfold cellAt
  rw [gate_congr x h x' h' Wx Wh b p p' hx hh 0 q, gate_congr x h x' h' Wx Wh b p p' hx hh 1 q,
    gate_congr x h x' h' Wx Wh b p p' hx hh 2 q, hc q]

theorem hiddenAt_congr (x h c : (⟨2, ![n, 1024]⟩ : Shape).Idx → EReal) (x' h' c' : (⟨2, ![n', 1024]⟩ : Shape).Idx → EReal)
    (Wx Wh : (⟨2, ![1024, 4096]⟩ : Shape).Idx → EReal) (b : Fin 4096 → EReal) (p : Fin n) (p' : Fin n')
    (hx : ∀ k : Fin 1024, x (ix2 p k) = x' (ix2 p' k)) (hh : ∀ k : Fin 1024, h (ix2 p k) = h' (ix2 p' k))
    (hc : ∀ k : Fin 1024, c (ix2 p k) = c' (ix2 p' k)) (q : Fin 1024) :
    hiddenAt x h c Wx Wh b p q = hiddenAt x' h' c' Wx Wh b p' q := by
  unfold hiddenAt
  rw [gate_congr x h x' h' Wx Wh b p p' hx hh 3 q, cellAt_congr x h c x' h' c' Wx Wh b p p' hx hh hc q]

end Cert.Lstm

end
-- ==== Proof.PayIdx.lean ====
/-
  The kernel body's two stored values read at an index of the block, on the extended reals.

  With the six loaded blocks as variables — `v0`, `v2` the 256 × 1024 blocks of the input and of the hidden state, `v4` the
  block of the cell state, `v5`, `v7` the two resident 1024 × 4096 weight matrices, `v9` the 1 × 4096 bias row —, the value
  stored into the cell-state output at row `r`, column `q` of the block is `Lstm.cellAt` of these operands, and the value
  stored into the hidden-state output is `Lstm.hiddenAt`: each gate is a column slice of the two matrix products plus the
  bias row's slice broadcast down the rows.
-/
import proofs.«111780_j29686813950554_1_alg».proof.Proof.Gen.KernelIdeal.Skeleton
import proofs.«111780_j29686813950554_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayIdx

open Cert.KernelIdeal Cert.KernelIdeal.Gen Idealize.ShloMosaic Idealize.ShloMosaic.ValueIdx
open scoped BigOperators

/-! ## The matrix product's operand indices

At output index `i` and contraction index `q` the left operand is read at (row of `i`, `q`) and the right operand at
(`q`, column of `i`). -/

theorem lhs_dot_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_dot_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_dot_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_dot_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A 256 × 1024 block times a 1024 × 1024 block into the zero accumulator, at row `r`, column `q`: the dot product of
    row `r` of the left operand with column `q` of the right one. -/
theorem matmul_zero_apply (lhs : FVec Ideal S256x1024 .bf16) (rhs : FVec Ideal S1024x1024 .bf16) (r : Fin 256) (q : Fin 1024) :
    matmul dot_S256x1024_S1024x1024_S256x1024_1_0_0_1_n_n none lhs rhs (constant (F := Ideal) S256x1024 .f32 0x00000000#32) (ix2 r q)
      = ∑ k : Fin 1024, lhs (ix2 r k) * rhs (ix2 k q) := by
  refine (Ideal.matmul_constant_zero_apply dot_S256x1024_S1024x1024_S256x1024_1_0_0_1_n_n none lhs rhs (ix2 r q)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r q) ((contrEquiv1 dot_S256x1024_S1024x1024_S256x1024_1_0_0_1_n_n 1024 rfl rfl).symm k) = ix2 r k := funext fun a => Fin.ext (by
    match a with
    | ⟨0, _⟩ => exact lhs_dot_0 _ _
    | ⟨1, _⟩ => exact (lhs_dot_1 _ _).trans hk)
  have er : dot_S256x1024_S1024x1024_S256x1024_1_0_0_1_n_n.rhsIdx (ix2 r q) ((contrEquiv1 dot_S256x1024_S1024x1024_S256x1024_1_0_0_1_n_n 1024 rfl rfl).symm k) = ix2 k q := funext fun a => Fin.ext (by
    match a with
    | ⟨0, _⟩ => exact (rhs_dot_0 _ _).trans hk
    | ⟨1, _⟩ => exact rhs_dot_1 _ _)
  rw [el, er]

/-! ## A column slice of a fused operand -/

/-- The 1024 × 1024 column slice at offset `o` of a 1024 × 4096 matrix, at (`k`, `q`): the matrix at (`k`, `o + q`). -/
theorem slice_mat_apply (o : Nat) (W : FVec Ideal S1024x4096 .bf16) (h : S1024x4096.Slices ![0, o] S1024x1024)
    (k q : Fin 1024) (c : Fin 4096) (hc : c.val = o + q.val) :
    extractStridedSlice S1024x1024 ![0, o] W h (ix2 k q) = W (ix2 k c) :=
  extractStridedSlice_apply ![0, o] W h (ix2 k q) (ix2 k c) (fun a => by
    match a with
    | ⟨0, _⟩ => exact (Nat.zero_add _).symm
    | ⟨1, _⟩ => exact hc)

/-- The 1 × 1024 slice at offset `o` of the 1 × 4096 bias row, at (`0`, `q`): the row at (`0`, `o + q`). -/
theorem slice_row_apply (o : Nat) (b : FVec Ideal S1x4096 .f32) (h : S1x4096.Slices ![0, o] S1x1024)
    (z : Fin 1) (q : Fin 1024) (c : Fin 4096) (hc : c.val = o + q.val) :
    extractStridedSlice S1x1024 ![0, o] b h (ix2 z q) = b (ix2 z c) :=
  extractStridedSlice_apply ![0, o] b h (ix2 z q) (ix2 z c) (fun a => by
    match a with
    | ⟨0, _⟩ => exact (Nat.zero_add _).symm
    | ⟨1, _⟩ => exact hc)

/-- A 1 × 1024 row broadcast down 256 rows, at (`r`, `q`): the row at (`0`, `q`). -/
theorem bcast_row_apply (x : FVec Ideal S1x1024 .f32) (r : Fin 256) (q : Fin 1024) :
    broadcastTo S256x1024 x broadcasts_S1x1024_S256x1024 (ix2 r q) = x (ix2 (0 : Fin 1) q) :=
  broadcastTo_apply x broadcasts_S1x1024_S256x1024 (ix2 r q) (ix2 (0 : Fin 1) q) (fun a => by
    match a with
    | ⟨0, _⟩ => rfl
    | ⟨1, _⟩ => rfl)

/-! ## The identity shape casts of the loaded blocks -/

theorem pay3_eq (v0 : Vec Ideal S256x1024 .bf16) : k0_pay3 (F := Ideal) v0 = v0 := shapeCast_self v0 _
theorem pay4_eq (v2 : Vec Ideal S256x1024 .bf16) : k0_pay4 (F := Ideal) v2 = v2 := shapeCast_self v2 _
theorem pay5_eq (v5 : Vec Ideal S1024x4096 .bf16) : k0_pay5 (F := Ideal) v5 = v5 := shapeCast_self v5 _
theorem pay6_eq (v7 : Vec Ideal S1024x4096 .bf16) : k0_pay6 (F := Ideal) v7 = v7 := shapeCast_self v7 _
theorem pay7_eq (v9 : Vec Ideal S1x4096 .f32) : k0_pay7 (F := Ideal) v9 = v9 := shapeCast_self v9 _

/-! ## One gate's pre-activation -/

/-- The two products of the blocks with the column slices at offset `o = 1024 g` of the two matrices, added, plus the bias
    row's slice at the same offset broadcast down the rows, read at (`r`, `q`): gate `g`'s pre-activation. -/
theorem gate_apply (g : Fin 4) (o : Nat) (ho : o = g.val * 1024)
    (hW : S1024x4096.Slices ![0, o] S1024x1024) (hb : S1x4096.Slices ![0, o] S1x1024)
    (v0 v2 : FVec Ideal S256x1024 .bf16) (v5 v7 : FVec Ideal S1024x4096 .bf16) (v9 : FVec Ideal S1x4096 .f32)
    (r : Fin 256) (q : Fin 1024) :
    addf (addf (matmul dot_S256x1024_S1024x1024_S256x1024_1_0_0_1_n_n none v0 (extractStridedSlice S1024x1024 ![0, o] v5 hW) (constant (F := Ideal) S256x1024 .f32 0x00000000#32))
               (matmul dot_S256x1024_S1024x1024_S256x1024_1_0_0_1_n_n none v2 (extractStridedSlice S1024x1024 ![0, o] v7 hW) (constant (F := Ideal) S256x1024 .f32 0x00000000#32)))
         (broadcastTo S256x1024 (extractStridedSlice S1x1024 ![0, o] v9 hb) broadcasts_S1x1024_S256x1024) (ix2 r q)
      = Cert.Lstm.gate v0 v2 v5 v7 (fun j => v9 (ix2 (0 : Fin 1) j)) g r q := by
  have hc : (Cert.Lstm.col g q).val = o + q.val := by rw [Cert.Lstm.col_val, ho]
  show (matmul dot_S256x1024_S1024x1024_S256x1024_1_0_0_1_n_n none v0 (extractStridedSlice S1024x1024 ![0, o] v5 hW) (constant (F := Ideal) S256x1024 .f32 0x00000000#32) (ix2 r q)
        + matmul dot_S256x1024_S1024x1024_S256x1024_1_0_0_1_n_n none v2 (extractStridedSlice S1024x1024 ![0, o] v7 hW) (constant (F := Ideal) S256x1024 .f32 0x00000000#32) (ix2 r q))
        + broadcastTo S256x1024 (extractStridedSlice S1x1024 ![0, o] v9 hb) broadcasts_S1x1024_S256x1024 (ix2 r q) = _
  rw [matmul_zero_apply, matmul_zero_apply, bcast_row_apply, slice_row_apply o v9 hb 0 q (Cert.Lstm.col g q) hc]
  unfold Cert.Lstm.gate
  have e1 : ∑ k : Fin 1024, v0 (ix2 r k) * extractStridedSlice S1024x1024 ![0, o] v5 hW (ix2 k q)
      = ∑ k : Fin 1024, v0 (ix2 r k) * v5 (ix2 k (Cert.Lstm.col g q)) :=
    Finset.sum_congr rfl fun k _ => by rw [slice_mat_apply o v5 hW k q (Cert.Lstm.col g q) hc]
  have e2 : ∑ k : Fin 1024, v2 (ix2 r k) * extractStridedSlice S1024x1024 ![0, o] v7 hW (ix2 k q)
      = ∑ k : Fin 1024, v2 (ix2 r k) * v7 (ix2 k (Cert.Lstm.col g q)) :=
    Finset.sum_congr rfl fun k _ => by rw [slice_mat_apply o v7 hW k q (Cert.Lstm.col g q) hc]
  rw [e1, e2]

/-- Gate 0 (forget). -/
theorem gate0_apply (v0 v2 : Vec Ideal S256x1024 .bf16) (v5 v7 : Vec Ideal S1024x4096 .bf16) (v9 : Vec Ideal S1x4096 .f32)
    (r : Fin 256) (q : Fin 1024) :
    k0_pay8 (F := Ideal) v0 v2 v5 v7 v9 (ix2 r q) = Cert.Lstm.gate v0 v2 v5 v7 (fun j => v9 (ix2 (0 : Fin 1) j)) 0 r q := by
  unfold k0_pay8
  rw [pay3_eq, pay4_eq, pay5_eq, pay6_eq, pay7_eq]
  exact gate_apply 0 0 rfl _ _ v0 v2 v5 v7 v9 r q

/-- Gate 1 (input). -/
theorem gate1_apply (v0 v2 : Vec Ideal S256x1024 .bf16) (v5 v7 : Vec Ideal S1024x4096 .bf16) (v9 : Vec Ideal S1x4096 .f32)
    (r : Fin 256) (q : Fin 1024) :
    k0_pay9 (F := Ideal) v0 v2 v5 v7 v9 (ix2 r q) = Cert.Lstm.gate v0 v2 v5 v7 (fun j => v9 (ix2 (0 : Fin 1) j)) 1 r q := by
  unfold k0_pay9
  rw [pay3_eq, pay4_eq, pay5_eq, pay6_eq, pay7_eq]
  exact gate_apply 1 1024 rfl _ _ v0 v2 v5 v7 v9 r q

/-- Gate 2 (candidate). -/
theorem gate2_apply (v0 v2 : Vec Ideal S256x1024 .bf16) (v5 v7 : Vec Ideal S1024x4096 .bf16) (v9 : Vec Ideal S1x4096 .f32)
    (r : Fin 256) (q : Fin 1024) :
    k0_pay10 (F := Ideal) v0 v2 v5 v7 v9 (ix2 r q) = Cert.Lstm.gate v0 v2 v5 v7 (fun j => v9 (ix2 (0 : Fin 1) j)) 2 r q := by
  unfold k0_pay10
  rw [pay3_eq, pay4_eq, pay5_eq, pay6_eq, pay7_eq]
  exact gate_apply 2 2048 rfl _ _ v0 v2 v5 v7 v9 r q

/-- Gate 3 (output), whose three pieces the hidden-state store assembles itself. -/
theorem gate3_apply (v0 v2 : Vec Ideal S256x1024 .bf16) (v5 v7 : Vec Ideal S1024x4096 .bf16) (v9 : Vec Ideal S1x4096 .f32)
    (r : Fin 256) (q : Fin 1024) :
    addf (addf (k0_pay13 (F := Ideal) v0 v5)
               (matmul dot_S256x1024_S1024x1024_S256x1024_1_0_0_1_n_n none (k0_pay4 (F := Ideal) v2) (k0_pay11 (F := Ideal) v7) (constant (F := Ideal) S256x1024 .f32 0x00000000#32)))
         (broadcastTo S256x1024 (k0_pay12 (F := Ideal) v9) broadcasts_S1x1024_S256x1024) (ix2 r q)
      = Cert.Lstm.gate v0 v2 v5 v7 (fun j => v9 (ix2 (0 : Fin 1) j)) 3 r q := by
  unfold k0_pay13 k0_pay11 k0_pay12
  rw [pay3_eq, pay4_eq, pay5_eq, pay6_eq, pay7_eq]
  exact gate_apply 3 3072 rfl _ _ v0 v2 v5 v7 v9 r q

/-- The cell-state store's value at row `r`, column `q` of the block. -/
theorem cell_apply (v0 v2 : Vec Ideal S256x1024 .bf16) (v4 : Vec Ideal S256x1024 .f32) (v5 v7 : Vec Ideal S1024x4096 .bf16)
    (v9 : Vec Ideal S1x4096 .f32) (r : Fin 256) (q : Fin 1024) :
    k0_pay1 (F := Ideal) v4 (k0_pay8 v0 v2 v5 v7 v9) (k0_pay9 v0 v2 v5 v7 v9) (k0_pay10 v0 v2 v5 v7 v9) (ix2 r q)
      = Cert.Lstm.cellAt v0 v2 v4 v5 v7 (fun j => v9 (ix2 (0 : Fin 1) j)) r q := by
  unfold k0_pay1
  show FloatOps.addf (FloatOps.mulf (FloatOps.logistic (k0_pay8 (F := Ideal) v0 v2 v5 v7 v9 (ix2 r q))) (v4 (ix2 r q)))
        (FloatOps.mulf (FloatOps.logistic (k0_pay9 (F := Ideal) v0 v2 v5 v7 v9 (ix2 r q)))
          (FloatOps.tanh (k0_pay10 (F := Ideal) v0 v2 v5 v7 v9 (ix2 r q)))) = _
  rw [gate0_apply, gate1_apply, gate2_apply]
  rfl

/-- The hidden-state store's value at row `r`, column `q` of the block. -/
theorem hidden_apply (v0 v2 : Vec Ideal S256x1024 .bf16) (v4 : Vec Ideal S256x1024 .f32) (v5 v7 : Vec Ideal S1024x4096 .bf16)
    (v9 : Vec Ideal S1x4096 .f32) (r : Fin 256) (q : Fin 1024) :
    k0_pay2 (F := Ideal) (k0_pay4 v2) v4 (k0_pay8 v0 v2 v5 v7 v9) (k0_pay9 v0 v2 v5 v7 v9) (k0_pay10 v0 v2 v5 v7 v9)
        (k0_pay11 v7) (k0_pay12 v9) (k0_pay13 v0 v5) (constant S256x1024 .f32 0x00000000#32) (ix2 r q)
      = Cert.Lstm.hiddenAt v0 v2 v4 v5 v7 (fun j => v9 (ix2 (0 : Fin 1) j)) r q := by
  unfold k0_pay2
  show FloatOps.mulf
        (FloatOps.logistic
          (addf (addf (k0_pay13 (F := Ideal) v0 v5)
                      (matmul dot_S256x1024_S1024x1024_S256x1024_1_0_0_1_n_n none (k0_pay4 (F := Ideal) v2) (k0_pay11 (F := Ideal) v7) (constant (F := Ideal) S256x1024 .f32 0x00000000#32)))
                (broadcastTo S256x1024 (k0_pay12 (F := Ideal) v9) broadcasts_S1x1024_S256x1024) (ix2 r q)))
        (FloatOps.tanh (k0_pay1 (F := Ideal) v4 (k0_pay8 v0 v2 v5 v7 v9) (k0_pay9 v0 v2 v5 v7 v9) (k0_pay10 v0 v2 v5 v7 v9) (ix2 r q))) = _
  rw [gate3_apply, cell_apply]
  rfl

end Cert.KernelIdeal.PayIdx

end
-- ==== Proof.KValue.lean ====
/-
  What the kernel's two result arrays hold after the run, on the extended reals: the specification's arrays.

  The frame run leaves each output array at what the sixteen blocks written back make of it. Point `t` writes block `t`
  (rows `256 t … 256 t + 255`) of each output; the value it writes at row `r`, column `q` of the block is the
  specification at the blocks of the input, hidden and cell arrays at `t` and at the whole weight matrices and bias row
  (the body's stored values read at an index), and row `r` of those blocks is row `256 t + r` of the arrays; the sixteen
  blocks tile the arrays. The arrays the region stages are computed by the host operations before it: roundings to bf16,
  which on the extended reals change nothing, of the input, of the hidden state and of the concatenated weight matrices,
  and the concatenated bias reshaped to one row.
-/
import proofs.«111780_j29686813950554_1_alg».proof.Proof.FrameKI
import proofs.«111780_j29686813950554_1_alg».proof.Proof.PayIdx
import proofs.«111780_j29686813950554_1_alg».proof.Proof.Spec
import Idealize.ShloMosaic.Lib.Pipeline.Value
import Idealize.ShloMosaic.Lib.ValueIdx
import Idealize.ShloMosaic.Lib.StableHlo.Run

noncomputable section

namespace Cert.Lstm

open Idealize.ShloMosaic Idealize.ShloMosaic.ValueIdx

variable {n n' : Nat}

/-- `cellAt_congr` with the matrices and the bias equal rather than the same. -/
theorem cellAt_congr' (x h c : (⟨2, ![n, 1024]⟩ : Shape).Idx → EReal) (Wx Wh : (⟨2, ![1024, 4096]⟩ : Shape).Idx → EReal) (b : Fin 4096 → EReal)
    (x' h' c' : (⟨2, ![n', 1024]⟩ : Shape).Idx → EReal) (Wx' Wh' : (⟨2, ![1024, 4096]⟩ : Shape).Idx → EReal) (b' : Fin 4096 → EReal)
    (p : Fin n) (p' : Fin n')
    (hx : ∀ k : Fin 1024, x (ix2 p k) = x' (ix2 p' k)) (hh : ∀ k : Fin 1024, h (ix2 p k) = h' (ix2 p' k))
    (hc : ∀ k : Fin 1024, c (ix2 p k) = c' (ix2 p' k)) (hWx : Wx = Wx') (hWh : Wh = Wh') (hb : b = b') (q : Fin 1024) :
    cellAt x h c Wx Wh b p q = cellAt x' h' c' Wx' Wh' b' p' q := by
  subst hWx hWh hb
  exact cellAt_congr x h c x' h' c' Wx Wh b p p' hx hh hc q

/-- `hiddenAt_congr` with the matrices and the bias equal rather than the same. -/
theorem hiddenAt_congr' (x h c : (⟨2, ![n, 1024]⟩ : Shape).Idx → EReal) (Wx Wh : (⟨2, ![1024, 4096]⟩ : Shape).Idx → EReal) (b : Fin 4096 → EReal)
    (x' h' c' : (⟨2, ![n', 1024]⟩ : Shape).Idx → EReal) (Wx' Wh' : (⟨2, ![1024, 4096]⟩ : Shape).Idx → EReal) (b' : Fin 4096 → EReal)
    (p : Fin n) (p' : Fin n')
    (hx : ∀ k : Fin 1024, x (ix2 p k) = x' (ix2 p' k)) (hh : ∀ k : Fin 1024, h (ix2 p k) = h' (ix2 p' k))
    (hc : ∀ k : Fin 1024, c (ix2 p k) = c' (ix2 p' k)) (hWx : Wx = Wx') (hWh : Wh = Wh') (hb : b = b') (q : Fin 1024) :
    hiddenAt x h c Wx Wh b p q = hiddenAt x' h' c' Wx' Wh' b' p' q := by
  subst hWx hWh hb
  exact hiddenAt_congr x h c x' h' c' Wx Wh b p p' hx hh hc q

end Cert.Lstm

namespace Cert.KernelIdeal.KV

open Cert.KernelIdeal Cert.KernelIdeal.Gen Cert.KernelIdeal.Fr Cert.Lstm
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Row `r` of block `t`: row `256 t + r` of the array. -/
def row (t : Fin cfg0.N) (r : Fin 256) : Fin 4096 :=
  ⟨256 * t.val + r.val, by have h := t.isLt; have hN : cfg0.N = 16 := N_0; have := r.isLt; omega⟩

theorem row_val (t : Fin cfg0.N) (r : Fin 256) : (row t r).val = 256 * t.val + r.val := rfl

/-- The printed index maps over the grid: the three activation windows and the two output windows take block `t` along
    the rows, the three resident windows their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The input blocks as rows of their arrays -/

/-- Row `r` of window 0's block at point `t` is row `256 t + r` of its array. -/
theorem blk0 (c : Dev nD) (t : Fin cfg0.N) (r : Fin 256) (k : Fin 1024) :
    (iblk m c 0 t : S256x1024.Idx → EReal) (ix2 r k) = (V m c main_v6 : S4096x1024.Idx → EReal) (ix2 (row t r) k) := by
  obtain ⟨e00, e01, e10, e11, e20, e21, -⟩ := idx_facts t
  unfold iblk
  rw [View.read_apply]
  show V m c main_v6 _ = V m c main_v6 _
  refine congrArg (V m c main_v6) (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * k.val = k.val; omega

/-- Row `r` of window 1's block at point `t` is row `256 t + r` of its array. -/
theorem blk1 (c : Dev nD) (t : Fin cfg0.N) (r : Fin 256) (k : Fin 1024) :
    (iblk m c 1 t : S256x1024.Idx → EReal) (ix2 r k) = (V m c main_v7 : S4096x1024.Idx → EReal) (ix2 (row t r) k) := by
  obtain ⟨e00, e01, e10, e11, e20, e21, -⟩ := idx_facts t
  unfold iblk
  rw [View.read_apply]
  show V m c main_v7 _ = V m c main_v7 _
  refine congrArg (V m c main_v7) (funext fun a => Fin.ext ?_)
  match a with
  | ⟨0, _⟩ => show win0_1.index t (0 : Fin 2) * 256 + 1 * r.val = 256 * t.val + r.val; omega
  | ⟨1, _⟩ => show win0_1.index t (1 : Fin 2) * 1024 + 1 * k.val = k.val; omega

/-- Row `r` of window 2's block at point `t` is row `256 t + r` of its array. -/
theorem blk2 (c : Dev nD) (t : Fin cfg0.N) (r : Fin 256) (k : Fin 1024) :
    (iblk m c 2 t : S256x1024.Idx → EReal) (ix2 r k) = (V m c main_arg2 : S4096x1024.Idx → EReal) (ix2 (row t r) k) := by
  obtain ⟨e00, e01, e10, e11, e20, e21, -⟩ := idx_facts t
  unfold iblk
  rw [View.read_apply]
  show V m c main_arg2 _ = V m c main_arg2 _
  refine congrArg (V m c main_arg2) (funext fun a => Fin.ext ?_)
  match a with
  | ⟨0, _⟩ => show win0_2.index t (0 : Fin 2) * 256 + 1 * r.val = 256 * t.val + r.val; omega
  | ⟨1, _⟩ => show win0_2.index t (1 : Fin 2) * 1024 + 1 * k.val = k.val; omega

/-- Window 3's one block is its whole array. -/
theorem blk3 (c : Dev nD) (t : Fin cfg0.N) : (iblk m c 3 t : S1024x4096.Idx → EReal) = (V m c main_v1 : S1024x4096.Idx → EReal) := by
  obtain ⟨-, -, -, -, -, -, e30, e31, e40, e41, e50, e51, -⟩ := idx_facts t
  funext y
  unfold iblk
  rw [View.read_apply]
  show V m c main_v1 _ = V m c main_v1 y
  refine congrArg (V m c main_v1) (funext fun a => Fin.ext ?_)
  match a with
  | ⟨0, _⟩ => show win0_3.index t (0 : Fin 2) * 1024 + 1 * (y 0).val = (y 0).val; omega
  | ⟨1, _⟩ => show win0_3.index t (1 : Fin 2) * 4096 + 1 * (y 1).val = (y 1).val; omega

/-- Window 4's one block is its whole array. -/
theorem blk4 (c : Dev nD) (t : Fin cfg0.N) : (iblk m c 4 t : S1024x4096.Idx → EReal) = (V m c main_v3 : S1024x4096.Idx → EReal) := by
  obtain ⟨-, -, -, -, -, -, e30, e31, e40, e41, e50, e51, -⟩ := idx_facts t
  funext y
  unfold iblk
  rw [View.read_apply]
  show V m c main_v3 _ = V m c main_v3 y
  refine congrArg (V m c main_v3) (funext fun a => Fin.ext ?_)
  match a with
  | ⟨0, _⟩ => show win0_4.index t (0 : Fin 2) * 1024 + 1 * (y 0).val = (y 0).val; omega
  | ⟨1, _⟩ => show win0_4.index t (1 : Fin 2) * 4096 + 1 * (y 1).val = (y 1).val; omega

/-- Window 5's one block is its whole array. -/
theorem blk5 (c : Dev nD) (t : Fin cfg0.N) : (iblk m c 5 t : S1x4096.Idx → EReal) = (V m c main_v5 : S1x4096.Idx → EReal) := by
  obtain ⟨-, -, -, -, -, -, e30, e31, e40, e41, e50, e51, -⟩ := idx_facts t
  funext y
  unfold iblk
  rw [View.read_apply]
  show V m c main_v5 _ = V m c main_v5 y
  refine congrArg (V m c main_v5) (funext fun a => Fin.ext ?_)
  match a with
  | ⟨0, _⟩ => show win0_5.index t (0 : Fin 2) * 1 + 1 * (y 0).val = (y 0).val; omega
  | ⟨1, _⟩ => show win0_5.index t (1 : Fin 2) * 4096 + 1 * (y 1).val = (y 1).val; omega

/-! ## The body's stored values at an index -/

/-- The hidden-state output buffer after the body, at row `r`, column `q`. -/
theorem outH_apply (x0 x1 : Vec Ideal S256x1024 .bf16) (x2 : Vec Ideal S256x1024 .f32) (x3 x4 : Vec Ideal S1024x4096 .bf16) (x5 : Vec Ideal S1x4096 .f32)
    (r : Fin 256) (q : Fin 1024) :
    outH x0 x1 x2 x3 x4 x5 (ix2 r q) = hiddenAt x0 x1 x2 x3 x4 (fun j => x5 (ix2 (0 : Fin 1) j)) r q := by
  unfold outH
  rw [View.canon_unit_zero hz]
  simp only [View.ld_unit_zero (S := S256x1024) hz, View.ld_unit_zero (S := S1024x4096) hz, View.ld_unit_zero (S := S1x4096) hz]
  exact Cert.KernelIdeal.PayIdx.hidden_apply x0 x1 x2 x3 x4 x5 r q

/-- The cell-state output buffer after the body, at row `r`, column `q`. -/
theorem outC_apply (x0 x1 : Vec Ideal S256x1024 .bf16) (x2 : Vec Ideal S256x1024 .f32) (x3 x4 : Vec Ideal S1024x4096 .bf16) (x5 : Vec Ideal S1x4096 .f32)
    (r : Fin 256) (q : Fin 1024) :
    outC x0 x1 x2 x3 x4 x5 (ix2 r q) = cellAt x0 x1 x2 x3 x4 (fun j => x5 (ix2 (0 : Fin 1) j)) r q := by
  unfold outC cellPay
  rw [View.canon_unit_zero hz]
  simp only [View.ld_unit_zero (S := S256x1024) hz, View.ld_unit_zero (S := S1024x4096) hz, View.ld_unit_zero (S := S1x4096) hz]
  exact Cert.KernelIdeal.PayIdx.cell_apply x0 x1 x2 x3 x4 x5 r q

/-! ## The two result arrays -/

/-- The bias row the region stages, as a function of the column. -/
def bias (c : Dev nD) : Fin 4096 → EReal := fun j => (V m c main_v5 : S1x4096.Idx → EReal) (ix2 (0 : Fin 1) j)

/-- The hidden-state array: the specification at the arrays the region finds. -/
def GH (c : Dev nD) : S4096x1024.Idx → EReal :=
  hiddenArr (V m c main_v6) (V m c main_v7) (V m c main_arg2) (V m c main_v1) (V m c main_v3) (bias m c)

/-- The cell-state array. -/
def GC (c : Dev nD) : S4096x1024.Idx → EReal :=
  cellArr (V m c main_v6) (V m c main_v7) (V m c main_arg2) (V m c main_v1) (V m c main_v3) (bias m c)

/-- What point `t` writes back to the hidden-state array is block `t` of `GH`. -/
theorem flushed6_eq (c : Dev nD) (t : Fin cfg0.N) :
    (dats m 0 c).flushed 6 t = ((cfg0.win 6).blk t).view.read (Elt Ideal) (GH m c) := by
  obtain ⟨-, -, -, -, -, -, -, -, -, -, -, -, e60, e61, e70, e71⟩ := idx_facts t
  show (cfg0.win 6).cut (grid0.coords t) ((dats m 0 c).after 6 t) = _
  rw [after0_6]
  funext j
  obtain ⟨r, q, rfl⟩ : ∃ (r : Fin 256) (q : Fin 1024), j = ix2 r q := ⟨j 0, j 1, eq_ix2 (n0 := 256) (n1 := 1024) j⟩
  show outH (iblk m c 0 t) (iblk m c 1 t) (iblk m c 2 t) (iblk m c 3 t) (iblk m c 4 t) (iblk m c 5 t) (ix2 r q) = GH m c (((cfg0.win 6).blk t).view.emb (ix2 r q))
  have hemb : ((cfg0.win 6).blk t).view.emb (ix2 r q) = (ix2 (row t r) q : S4096x1024.Idx) := funext fun a => Fin.ext (by
    match a with
    | ⟨0, _⟩ => show win0_6.index t (0 : Fin 2) * 256 + 1 * r.val = 256 * t.val + r.val; omega
    | ⟨1, _⟩ => show win0_6.index t (1 : Fin 2) * 1024 + 1 * q.val = q.val; omega)
  rw [hemb]
  refine (outH_apply (iblk m c 0 t) (iblk m c 1 t) (iblk m c 2 t) (iblk m c 3 t) (iblk m c 4 t) (iblk m c 5 t) r q).trans ?_
  exact hiddenAt_congr' (iblk m c 0 t) (iblk m c 1 t) (iblk m c 2 t) (iblk m c 3 t) (iblk m c 4 t) (fun j => (iblk m c 5 t : S1x4096.Idx → EReal) (ix2 (0 : Fin 1) j))
    (V m c main_v6) (V m c main_v7) (V m c main_arg2) (V m c main_v1) (V m c main_v3) (bias m c) r (row t r)
    (fun k => blk0 m c t r k) (fun k => blk1 m c t r k) (fun k => blk2 m c t r k) (blk3 m c t) (blk4 m c t)
    (funext fun j => congrFun (blk5 m c t) (ix2 (0 : Fin 1) j)) q

/-- What point `t` writes back to the cell-state array is block `t` of `GC`. -/
theorem flushed7_eq (c : Dev nD) (t : Fin cfg0.N) :
    (dats m 0 c).flushed 7 t = ((cfg0.win 7).blk t).view.read (Elt Ideal) (GC m c) := by
  obtain ⟨-, -, -, -, -, -, -, -, -, -, -, -, e60, e61, e70, e71⟩ := idx_facts t
  show (cfg0.win 7).cut (grid0.coords t) ((dats m 0 c).after 7 t) = _
  rw [after0_7]
  funext j
  obtain ⟨r, q, rfl⟩ : ∃ (r : Fin 256) (q : Fin 1024), j = ix2 r q := ⟨j 0, j 1, eq_ix2 (n0 := 256) (n1 := 1024) j⟩
  show outC (iblk m c 0 t) (iblk m c 1 t) (iblk m c 2 t) (iblk m c 3 t) (iblk m c 4 t) (iblk m c 5 t) (ix2 r q) = GC m c (((cfg0.win 7).blk t).view.emb (ix2 r q))
  have hemb : ((cfg0.win 7).blk t).view.emb (ix2 r q) = (ix2 (row t r) q : S4096x1024.Idx) := funext fun a => Fin.ext (by
    match a with
    | ⟨0, _⟩ => show win0_7.index t (0 : Fin 2) * 256 + 1 * r.val = 256 * t.val + r.val; omega
    | ⟨1, _⟩ => show win0_7.index t (1 : Fin 2) * 1024 + 1 * q.val = q.val; omega)
  rw [hemb]
  refine (outC_apply (iblk m c 0 t) (iblk m c 1 t) (iblk m c 2 t) (iblk m c 3 t) (iblk m c 4 t) (iblk m c 5 t) r q).trans ?_
  exact cellAt_congr' (iblk m c 0 t) (iblk m c 1 t) (iblk m c 2 t) (iblk m c 3 t) (iblk m c 4 t) (fun j => (iblk m c 5 t : S1x4096.Idx → EReal) (ix2 (0 : Fin 1) j))
    (V m c main_v6) (V m c main_v7) (V m c main_arg2) (V m c main_v1) (V m c main_v3) (bias m c) r (row t r)
    (fun k => blk0 m c t r k) (fun k => blk1 m c t r k) (fun k => blk2 m c t r k) (blk3 m c t) (blk4 m c t)
    (funext fun j => congrFun (blk5 m c t) (ix2 (0 : Fin 1) j)) q

/-! ## The blocks tile the arrays -/

theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v8_0).slice (win0_6.rect t)).set ↔ _
  rw [View.set_slice_whole, Rect.mem_set_unit]
  exact Iff.rfl

/-- Every index of the array lies in the block of the point its row falls in. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 16 := N_0
  let t : Fin cfg0.N := ⟨(i 0).val / 256, by omega⟩
  have ht : t.val = (i 0).val / 256 := rfl
  obtain ⟨-, -, -, -, -, -, -, -, -, -, -, -, e60, e61, e70, e71⟩ := idx_facts t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

theorem mem_blk7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v8_1).slice (win0_7.rect t)).set ↔ _
  rw [View.set_slice_whole, Rect.mem_set_unit]
  exact Iff.rfl

/-- Every index of the array lies in the block of the point its row falls in. -/
theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have hN : cfg0.N = 16 := N_0
  let t : Fin cfg0.N := ⟨(i 0).val / 256, by omega⟩
  have ht : t.val = (i 0).val / 256 := rfl
  obtain ⟨-, -, -, -, -, -, -, -, -, -, -, -, e60, e61, e70, e71⟩ := idx_facts t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- The hidden-state array after the run. -/
theorem final6 (c : Dev nD) : (dats m 0 c).arrAt 6 cfg0.N = GH m c :=
  (dats m 0 c).arrAt_eq_of_cover 6 (GH m c) (fun t _ => flushed6_eq m c t) cover6

/-- The cell-state array after the run. -/
theorem final7 (c : Dev nD) : (dats m 0 c).arrAt 7 cfg0.N = GC m c :=
  (dats m 0 c).arrAt_eq_of_cover 7 (GC m c) (fun t _ => flushed7_eq m c t) cover7

end Cert.KernelIdeal.KV

end
-- ==== Proof.KRun.lean ====
/-
  The idealized kernel's run, read: its two result arrays as the specification of the ARGUMENT arrays.

  The arrays the region stages are what the eight host operations before it leave: the input and the hidden state rounded
  to bf16 (on the extended reals a change of format is the identity, so these are the arguments themselves), the four
  per-gate matrices of each kind joined along the columns and rounded likewise, and the four per-gate biases joined and
  reshaped from length 4096 to one row of 4096 (entry `(0, j)` of the row is entry `j`). With the result arrays of
  `KValue` this gives the run with every result a function of the arguments.
-/
import proofs.«111780_j29686813950554_1_alg».proof.Proof.KValue
import Idealize.ShloMosaic.Lib.StableHlo.Run
import Idealize.ShloMosaic.Lib.Pipeline.Value

noncomputable section

namespace Cert.KernelIdeal.KV

open Cert.KernelIdeal Cert.KernelIdeal.Gen Cert.KernelIdeal.Fr Cert.Lstm
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- Four 1024 × 1024 matrices joined along the columns. -/
def catW (a b c d : S1024x1024.Idx → EReal) : S1024x4096.Idx → EReal :=
  concatenate S1024x4096 1 [⟨S1024x1024, a⟩, ⟨S1024x1024, b⟩, ⟨S1024x1024, c⟩, ⟨S1024x1024, d⟩] concatenates_S1024x1024_S1024x1024_S1024x1024_S1024x1024_S1024x4096_d1

/-- Four vectors of length 1024 joined. -/
def catB (a b c d : S1024.Idx → EReal) : S4096.Idx → EReal :=
  concatenate S4096 0 [⟨S1024, a⟩, ⟨S1024, b⟩, ⟨S1024, c⟩, ⟨S1024, d⟩] concatenates_S1024_S1024_S1024_S1024_S4096_d0

/-! ## What the host operations leave in the staged arrays -/

theorem V_v6 (c : Dev nD) : (V m c main_v6 : S4096x1024.Idx → EReal) = (m ((c : Thread nD τ).loc main_arg0)) := by
  have e : @Eq (FVec Ideal S4096x1024 .bf16) (V m c main_v6) (truncf (F := Ideal) .bf16 ((m ((c : Thread nD τ).loc main_arg0)) : FVec Ideal S4096x1024 .f32) bitsLt_bf16_f32) := by
    dsimp only [V, hostOps0]; after_results
  exact e.trans rfl

theorem V_v7 (c : Dev nD) : (V m c main_v7 : S4096x1024.Idx → EReal) = (m ((c : Thread nD τ).loc main_arg1)) := by
  have e : @Eq (FVec Ideal S4096x1024 .bf16) (V m c main_v7) (truncf (F := Ideal) .bf16 ((m ((c : Thread nD τ).loc main_arg1)) : FVec Ideal S4096x1024 .f32) bitsLt_bf16_f32) := by
    dsimp only [V, hostOps0]; after_results
  exact e.trans rfl

theorem V_v1 (c : Dev nD) : (V m c main_v1 : S1024x4096.Idx → EReal) = catW (m ((c : Thread nD τ).loc main_arg6)) (m ((c : Thread nD τ).loc main_arg3)) (m ((c : Thread nD τ).loc main_arg9)) (m ((c : Thread nD τ).loc main_arg12)) := by
  have e : @Eq (FVec Ideal S1024x4096 .bf16) (V m c main_v1) (truncf (F := Ideal) .bf16 (catW (m ((c : Thread nD τ).loc main_arg6)) (m ((c : Thread nD τ).loc main_arg3)) (m ((c : Thread nD τ).loc main_arg9)) (m ((c : Thread nD τ).loc main_arg12)) : FVec Ideal S1024x4096 .f32) bitsLt_bf16_f32) := by
    dsimp only [V, hostOps0]; after_results; rfl
  exact e.trans rfl

theorem V_v3 (c : Dev nD) : (V m c main_v3 : S1024x4096.Idx → EReal) = catW (m ((c : Thread nD τ).loc main_arg7)) (m ((c : Thread nD τ).loc main_arg4)) (m ((c : Thread nD τ).loc main_arg10)) (m ((c : Thread nD τ).loc main_arg13)) := by
  have e : @Eq (FVec Ideal S1024x4096 .bf16) (V m c main_v3) (truncf (F := Ideal) .bf16 (catW (m ((c : Thread nD τ).loc main_arg7)) (m ((c : Thread nD τ).loc main_arg4)) (m ((c : Thread nD τ).loc main_arg10)) (m ((c : Thread nD τ).loc main_arg13)) : FVec Ideal S1024x4096 .f32) bitsLt_bf16_f32) := by
    dsimp only [V, hostOps0]; after_results; rfl
  exact e.trans rfl

theorem V_v5 (c : Dev nD) : @Eq (S1x4096.Idx → EReal) (V m c main_v5) (shapeCast S1x4096 (catB (m ((c : Thread nD τ).loc main_arg8)) (m ((c : Thread nD τ).loc main_arg5)) (m ((c : Thread nD τ).loc main_arg11)) (m ((c : Thread nD τ).loc main_arg14))) shapeCasts_S4096_S1x4096) := by
  dsimp only [V, hostOps0]; after_results; rfl

/-- Entry `(0, j)` of the reshaped bias row is entry `j` of the joined bias. -/
theorem bias_eq (c : Dev nD) : bias m c = fun j => catB (m ((c : Thread nD τ).loc main_arg8)) (m ((c : Thread nD τ).loc main_arg5)) (m ((c : Thread nD τ).loc main_arg11)) (m ((c : Thread nD τ).loc main_arg14)) (ix1 j) := by
  funext j
  unfold bias
  rw [V_v5]
  refine shapeCast_apply _ shapeCasts_S4096_S1x4096 (ix2 (0 : Fin 1) j) (ix1 j) ?_
  rw [Shape.rowMajor_val_one, Shape.rowMajor_val_two]
  show j.val = (0 : Fin 1).val * 4096 + j.val
  simp

/-! ## The two results as functions of the arguments -/

/-- The new hidden state, of the argument arrays. -/
def RH (c : Dev nD) : S4096x1024.Idx → EReal :=
  hiddenArr (m ((c : Thread nD τ).loc main_arg0)) (m ((c : Thread nD τ).loc main_arg1)) (m ((c : Thread nD τ).loc main_arg2)) (catW (m ((c : Thread nD τ).loc main_arg6)) (m ((c : Thread nD τ).loc main_arg3)) (m ((c : Thread nD τ).loc main_arg9)) (m ((c : Thread nD τ).loc main_arg12))) (catW (m ((c : Thread nD τ).loc main_arg7)) (m ((c : Thread nD τ).loc main_arg4)) (m ((c : Thread nD τ).loc main_arg10)) (m ((c : Thread nD τ).loc main_arg13)))
    (fun j => catB (m ((c : Thread nD τ).loc main_arg8)) (m ((c : Thread nD τ).loc main_arg5)) (m ((c : Thread nD τ).loc main_arg11)) (m ((c : Thread nD τ).loc main_arg14)) (ix1 j))

/-- The new cell state, of the argument arrays. -/
def RC (c : Dev nD) : S4096x1024.Idx → EReal :=
  cellArr (m ((c : Thread nD τ).loc main_arg0)) (m ((c : Thread nD τ).loc main_arg1)) (m ((c : Thread nD τ).loc main_arg2)) (catW (m ((c : Thread nD τ).loc main_arg6)) (m ((c : Thread nD τ).loc main_arg3)) (m ((c : Thread nD τ).loc main_arg9)) (m ((c : Thread nD τ).loc main_arg12))) (catW (m ((c : Thread nD τ).loc main_arg7)) (m ((c : Thread nD τ).loc main_arg4)) (m ((c : Thread nD τ).loc main_arg10)) (m ((c : Thread nD τ).loc main_arg13)))
    (fun j => catB (m ((c : Thread nD τ).loc main_arg8)) (m ((c : Thread nD τ).loc main_arg5)) (m ((c : Thread nD τ).loc main_arg11)) (m ((c : Thread nD τ).loc main_arg14)) (ix1 j))

theorem GH_eq (c : Dev nD) : GH m c = RH m c := by
  unfold GH RH
  rw [V_v6, V_v7, V_main_arg2, V_v1, V_v3, bias_eq]

theorem GC_eq (c : Dev nD) : GC m c = RC m c := by
  unfold GC RC
  rw [V_v6, V_v7, V_main_arg2, V_v1, V_v3, bias_eq]

/-! ## The run, read -/

/-- Every weakly fair execution of the idealized kernel's @main terminates with the two results at the specification of
    the arguments and the arguments unchanged. -/
theorem run : θ_run defs (onTc (τ := τ) (main (F := Ideal))) ⟨m, fun _ => 0, ρ⟩ fun r => ∀ c : Dev nD,
      r.2.mem ((c.tc : Thread nD τ).loc main_v8_0) = RH m c
      ∧ r.2.mem ((c.tc : Thread nD τ).loc main_v8_1) = RC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 6).trans ((final6 m c).trans (GH_eq m c)),
      ((h c).1 7).trans ((final7 m c).trans (GC_eq m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.KernelIdeal.KV

end
-- ==== Proof.RefIsG.lean ====
/-
  The reference's two results are the specification's arrays.

  The reference forms the two fused 1024 × 4096 weight matrices and the fused bias of length 4096 by concatenation, computes
  all four gates' pre-activations at once as `x · Wx + h · Wh + b` (a 4096 × 4096 array, the bias broadcast down the rows),
  cuts it into its four column slices and applies the gate functions; its logistic is spelt `1 / (1 + e^(-a))`, which is
  the kernel's single logistic operation on the extended reals. Index by index this is `Lstm.cellArr` / `Lstm.hiddenArr` of
  the three activations, the two concatenated matrices and the concatenated bias (the concatenations are never opened).
-/
import proofs.«111780_j29686813950554_1_alg».proof.Proof.Gen.ReferenceIdeal.Read
import proofs.«111780_j29686813950554_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The literal one and the logistic spelt out -/

/-- The word of the float literal `1.0` denotes the real number one. -/
theorem ofBits_one : Ideal.ofBits .f32 0x3F800000#32 = 1 := by
  simp [Ideal.ofBits, Ideal.ieee, -EReal.coe_mul]; norm_num

/-- `1 / (1 + e^(-a))`, written with the literal one on both places, is the logistic function of `a`. -/
theorem logistic_spelt (a : Ideal .f32) :
    FloatOps.hostDivf (F := Ideal) (φ := .f32) (FloatOps.ofBits .f32 0x3F800000#32)
        (FloatOps.addf (FloatOps.ofBits .f32 0x3F800000#32) (FloatOps.hostUnary .exp (FloatOps.hostNegf a)))
      = Ideal.logistic a := by
  rw [Ideal.ofBits_def, ofBits_one]
  rfl

/-! ## Index equations: the composed index maps at an index given by its coordinates -/

theorem lidx3 (p j : Fin 4096) (k : Fin 1024) : lidx_main_v3 (ix2 p j) k = ix2 p k :=
  funext fun a => Fin.ext (by match a with | ⟨0, _⟩ => rfl | ⟨1, _⟩ => rfl)

theorem ridx3 (p j : Fin 4096) (k : Fin 1024) : ridx_main_v3 (ix2 p j) k = ix2 k j :=
  funext fun a => Fin.ext (by match a with | ⟨0, _⟩ => rfl | ⟨1, _⟩ => rfl)

theorem lidx4 (p j : Fin 4096) (k : Fin 1024) : lidx_main_v4 (ix2 p j) k = ix2 p k :=
  funext fun a => Fin.ext (by match a with | ⟨0, _⟩ => rfl | ⟨1, _⟩ => rfl)

theorem ridx4 (p j : Fin 4096) (k : Fin 1024) : ridx_main_v4 (ix2 p j) k = ix2 k j :=
  funext fun a => Fin.ext (by match a with | ⟨0, _⟩ => rfl | ⟨1, _⟩ => rfl)

/-- The bias is broadcast down the rows: row `p`, column `j` reads entry `j`. -/
theorem idx67 (p j : Fin 4096) : idx_main_v6 (idx_main_v7 (ix2 p j)) = ix1 j :=
  funext fun a => Fin.ext (by match a with | ⟨0, _⟩ => rfl)

/-- Column `q` of the slice that begins at column `1024 g` is column `1024 g + q` of the wide array. -/
theorem idx9 (p : Fin 4096) (q : Fin 1024) : idx_main_v9 (ix2 p q) = ix2 p (Cert.Lstm.col 0 q) :=
  funext fun a => Fin.ext (by
    match a with
    | ⟨0, _⟩ => rfl
    | ⟨1, _⟩ => show q.val = (Cert.Lstm.col 0 q).val; rw [Cert.Lstm.col_val]; show q.val = 0 * 1024 + q.val; omega)

theorem idx10 (p : Fin 4096) (q : Fin 1024) : idx_main_v10 (ix2 p q) = ix2 p (Cert.Lstm.col 1 q) :=
  funext fun a => Fin.ext (by
    match a with
    | ⟨0, _⟩ => rfl
    | ⟨1, _⟩ => show 1024 + q.val = (Cert.Lstm.col 1 q).val; rw [Cert.Lstm.col_val]; show 1024 + q.val = 1 * 1024 + q.val; omega)

theorem idx11 (p : Fin 4096) (q : Fin 1024) : idx_main_v11 (ix2 p q) = ix2 p (Cert.Lstm.col 2 q) :=
  funext fun a => Fin.ext (by
    match a with
    | ⟨0, _⟩ => rfl
    | ⟨1, _⟩ => show 2048 + q.val = (Cert.Lstm.col 2 q).val; rw [Cert.Lstm.col_val]; show 2048 + q.val = 2 * 1024 + q.val; omega)

theorem idx12 (p : Fin 4096) (q : Fin 1024) : idx_main_v12 (ix2 p q) = ix2 p (Cert.Lstm.col 3 q) :=
  funext fun a => Fin.ext (by
    match a with
    | ⟨0, _⟩ => rfl
    | ⟨1, _⟩ => show 3072 + q.val = (Cert.Lstm.col 3 q).val; rw [Cert.Lstm.col_val]; show 3072 + q.val = 3 * 1024 + q.val; omega)

section Stages

variable (x0 x1 x2 : (⟨S4096x1024, .f32⟩ : BufTy).Contents (Elt Ideal))
  (x3 x4 : (⟨S1024x1024, .f32⟩ : BufTy).Contents (Elt Ideal)) (x5 : (⟨S1024, .f32⟩ : BufTy).Contents (Elt Ideal))
  (x6 x7 : (⟨S1024x1024, .f32⟩ : BufTy).Contents (Elt Ideal)) (x8 : (⟨S1024, .f32⟩ : BufTy).Contents (Elt Ideal))
  (x9 x10 : (⟨S1024x1024, .f32⟩ : BufTy).Contents (Elt Ideal)) (x11 : (⟨S1024, .f32⟩ : BufTy).Contents (Elt Ideal))
  (x12 x13 : (⟨S1024x1024, .f32⟩ : BufTy).Contents (Elt Ideal)) (x14 : (⟨S1024, .f32⟩ : BufTy).Contents (Elt Ideal))

/-! ## All four gates at once: the wide pre-activation array -/

/-- Row `p`, column `j` of `x · Wx + h · Wh + b`: two dot products added, then the bias. -/
theorem wide_apply (p j : Fin 4096) :
    val_main_v8 (F := Ideal) x0 x1 x3 x4 x5 x6 x7 x8 x9 x10 x11 x12 x13 x14 (ix2 p j)
      = (∑ k : Fin 1024, x0 (ix2 p k) * val_main_v0 (F := Ideal) x3 x6 x9 x12 (ix2 k j)
          + ∑ k : Fin 1024, x1 (ix2 p k) * val_main_v1 (F := Ideal) x4 x7 x10 x13 (ix2 k j))
        + val_main_v2 (F := Ideal) x5 x8 x11 x14 (ix1 j) := by
  rw [val_main_v8_apply, val_main_v5_apply, val_main_v3_apply, val_main_v4_apply, val_main_v7_apply,
    val_main_v6_apply, idx67]
  simp only [lidx3, ridx3, lidx4, ridx4]
  rfl

/-! ## The four column slices are the four gates -/

theorem forget_apply (p : Fin 4096) (q : Fin 1024) :
    val_main_v9 (F := Ideal) x0 x1 x3 x4 x5 x6 x7 x8 x9 x10 x11 x12 x13 x14 (ix2 p q)
      = Cert.Lstm.gate x0 x1 (val_main_v0 (F := Ideal) x3 x6 x9 x12) (val_main_v1 (F := Ideal) x4 x7 x10 x13)
          (fun j => val_main_v2 (F := Ideal) x5 x8 x11 x14 (ix1 j)) 0 p q := by
  rw [val_main_v9_apply, idx9, wide_apply]
  rfl

theorem input_apply (p : Fin 4096) (q : Fin 1024) :
    val_main_v10 (F := Ideal) x0 x1 x3 x4 x5 x6 x7 x8 x9 x10 x11 x12 x13 x14 (ix2 p q)
      = Cert.Lstm.gate x0 x1 (val_main_v0 (F := Ideal) x3 x6 x9 x12) (val_main_v1 (F := Ideal) x4 x7 x10 x13)
          (fun j => val_main_v2 (F := Ideal) x5 x8 x11 x14 (ix1 j)) 1 p q := by
  rw [val_main_v10_apply, idx10, wide_apply]
  rfl

theorem candidate_apply (p : Fin 4096) (q : Fin 1024) :
    val_main_v11 (F := Ideal) x0 x1 x3 x4 x5 x6 x7 x8 x9 x10 x11 x12 x13 x14 (ix2 p q)
      = Cert.Lstm.gate x0 x1 (val_main_v0 (F := Ideal) x3 x6 x9 x12) (val_main_v1 (F := Ideal) x4 x7 x10 x13)
          (fun j => val_main_v2 (F := Ideal) x5 x8 x11 x14 (ix1 j)) 2 p q := by
  rw [val_main_v11_apply, idx11, wide_apply]
  rfl

theorem output_apply (p : Fin 4096) (q : Fin 1024) :
    val_main_v12 (F := Ideal) x0 x1 x3 x4 x5 x6 x7 x8 x9 x10 x11 x12 x13 x14 (ix2 p q)
      = Cert.Lstm.gate x0 x1 (val_main_v0 (F := Ideal) x3 x6 x9 x12) (val_main_v1 (F := Ideal) x4 x7 x10 x13)
          (fun j => val_main_v2 (F := Ideal) x5 x8 x11 x14 (ix1 j)) 3 p q := by
  rw [val_main_v12_apply, idx12, wide_apply]
  rfl

/-! ## The three logistic gates -/

theorem forget_logistic (p : Fin 4096) (q : Fin 1024) :
    val_main_v18 (F := Ideal) x0 x1 x3 x4 x5 x6 x7 x8 x9 x10 x11 x12 x13 x14 (ix2 p q)
      = Ideal.logistic (Cert.Lstm.gate x0 x1 (val_main_v0 (F := Ideal) x3 x6 x9 x12)
          (val_main_v1 (F := Ideal) x4 x7 x10 x13) (fun j => val_main_v2 (F := Ideal) x5 x8 x11 x14 (ix1 j)) 0 p q) := by
  rw [val_main_v18_apply, val_main_v17_apply, val_main_cst_0_apply, val_main_v16_apply, val_main_v15_apply,
    val_main_cst_apply, val_main_v14_apply, val_main_v13_apply, forget_apply]
  exact logistic_spelt _

theorem input_logistic (p : Fin 4096) (q : Fin 1024) :
    val_main_v24 (F := Ideal) x0 x1 x3 x4 x5 x6 x7 x8 x9 x10 x11 x12 x13 x14 (ix2 p q)
      = Ideal.logistic (Cert.Lstm.gate x0 x1 (val_main_v0 (F := Ideal) x3 x6 x9 x12)
          (val_main_v1 (F := Ideal) x4 x7 x10 x13) (fun j => val_main_v2 (F := Ideal) x5 x8 x11 x14 (ix1 j)) 1 p q) := by
  rw [val_main_v24_apply, val_main_v23_apply, val_main_cst_2_apply, val_main_v22_apply, val_main_v21_apply,
    val_main_cst_1_apply, val_main_v20_apply, val_main_v19_apply, input_apply]
  exact logistic_spelt _

theorem output_logistic (p : Fin 4096) (q : Fin 1024) :
    val_main_v31 (F := Ideal) x0 x1 x3 x4 x5 x6 x7 x8 x9 x10 x11 x12 x13 x14 (ix2 p q)
      = Ideal.logistic (Cert.Lstm.gate x0 x1 (val_main_v0 (F := Ideal) x3 x6 x9 x12)
          (val_main_v1 (F := Ideal) x4 x7 x10 x13) (fun j => val_main_v2 (F := Ideal) x5 x8 x11 x14 (ix1 j)) 3 p q) := by
  rw [val_main_v31_apply, val_main_v30_apply, val_main_cst_4_apply, val_main_v29_apply, val_main_v28_apply,
    val_main_cst_3_apply, val_main_v27_apply, val_main_v26_apply, output_apply]
  exact logistic_spelt _

/-! ## The new cell and the new hidden state at an index -/

theorem cell_apply (p : Fin 4096) (q : Fin 1024) :
    val_main_v34 (F := Ideal) x0 x1 x2 x3 x4 x5 x6 x7 x8 x9 x10 x11 x12 x13 x14 (ix2 p q)
      = Cert.Lstm.cellAt x0 x1 x2 (val_main_v0 (F := Ideal) x3 x6 x9 x12) (val_main_v1 (F := Ideal) x4 x7 x10 x13)
          (fun j => val_main_v2 (F := Ideal) x5 x8 x11 x14 (ix1 j)) p q := by
  rw [val_main_v34_apply, val_main_v32_apply, val_main_v33_apply, val_main_v25_apply, forget_logistic, input_logistic,
    candidate_apply]
  rfl

theorem hidden_apply (p : Fin 4096) (q : Fin 1024) :
    val_main_v36 (F := Ideal) x0 x1 x2 x3 x4 x5 x6 x7 x8 x9 x10 x11 x12 x13 x14 (ix2 p q)
      = Cert.Lstm.hiddenAt x0 x1 x2 (val_main_v0 (F := Ideal) x3 x6 x9 x12) (val_main_v1 (F := Ideal) x4 x7 x10 x13)
          (fun j => val_main_v2 (F := Ideal) x5 x8 x11 x14 (ix1 j)) p q := by
  rw [val_main_v36_apply, val_main_v35_apply, output_logistic, cell_apply]
  rfl

end Stages

/-- The reference's new cell state is the specification's. -/
theorem cell_eq (x0 x1 x2 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) :
    val_main_v34 (F := Ideal) x0 x1 x2 x3 x4 x5 x6 x7 x8 x9 x10 x11 x12 x13 x14
      = Cert.Lstm.cellArr x0 x1 x2 (val_main_v0 (F := Ideal) x3 x6 x9 x12) (val_main_v1 (F := Ideal) x4 x7 x10 x13)
          (fun j => val_main_v2 (F := Ideal) x5 x8 x11 x14 (ix1 j)) := by
  funext i
  obtain ⟨p, q, rfl⟩ : ∃ (p : Fin 4096) (q : Fin 1024), i = ix2 p q := ⟨i 0, i 1, eq_ix2 i⟩
  rw [Cert.Lstm.cellArr_ix2]
  exact cell_apply x0 x1 x2 x3 x4 x5 x6 x7 x8 x9 x10 x11 x12 x13 x14 p q

/-- The reference's new hidden state is the specification's. -/
theorem hidden_eq (x0 x1 x2 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) :
    val_main_v36 (F := Ideal) x0 x1 x2 x3 x4 x5 x6 x7 x8 x9 x10 x11 x12 x13 x14
      = Cert.Lstm.hiddenArr x0 x1 x2 (val_main_v0 (F := Ideal) x3 x6 x9 x12) (val_main_v1 (F := Ideal) x4 x7 x10 x13)
          (fun j => val_main_v2 (F := Ideal) x5 x8 x11 x14 (ix1 j)) := by
  funext i
  obtain ⟨p, q, rfl⟩ : ∃ (p : Fin 4096) (q : Fin 1024), i = ix2 p q := ⟨i 0, i 1, eq_ix2 i⟩
  rw [Cert.Lstm.hiddenArr_ix2]
  exact hidden_apply x0 x1 x2 x3 x4 x5 x6 x7 x8 x9 x10 x11 x12 x13 x14 p q

end Cert.ReferenceIdeal.RefValue

end
-- ==== Proof.lean ====
/-
  One LSTM step, fused: the Pallas kernel (bf16 operands into the matrix unit, the two weight matrices resident, sixteen
  blocks of 256 batch rows) against its jnp reference, over the extended reals.

  Both programs join the four gates' weight matrices along the columns and the four biases end to end, and compute for
  every batch row `p` and hidden column `q` the four pre-activations
      a_g = (Σ_k x[p,k] · Wx[k, 1024 g + q] + Σ_k h[p,k] · Wh[k, 1024 g + q]) + b[1024 g + q],
  the new cell  σ(a_0) · c + σ(a_1) · tanh(a_2)  and the new hidden state  σ(a_3) · tanh(new cell). The kernel rounds its
  matrix operands to bf16 — the identity on the extended reals — and takes each gate as its own pair of 1024-column
  products; the reference takes one 4096-column product and slices it; the kernel's logistic is one operation, the
  reference's the expression 1 / (1 + e^(-a)), one function on the extended reals. The sums associate alike on both sides,
  so no law beyond the definitions joins them, and the precondition (finite inputs) is never opened.

  The modules: `Spec` (the function, generic in the row count), `FrameKI` / `FrameK` (the two kernel programs' frames,
  one text generic in the float instance), `PayIdx` (the body's stored values at an index), `KValue` (the result arrays
  as the blocks written back), `KRun` (the host operations before the region, and the idealized kernel's run read),
  `RefIsG` (the reference's results are the specification's arrays). Here: the five claims.
-/
import proofs.«111780_j29686813950554_1_alg».proof.Defs
import proofs.«111780_j29686813950554_1_alg».proof.Proof.Gen.Kernel
import proofs.«111780_j29686813950554_1_alg».proof.Proof.Gen.KernelIdeal
import proofs.«111780_j29686813950554_1_alg».proof.Proof.Gen.ReferenceIdeal
import proofs.«111780_j29686813950554_1_alg».proof.Proof.Gen.Pre_finite_inputs
import proofs.«111780_j29686813950554_1_alg».proof.Proof.Gen.ReferenceIdeal.Run
import proofs.«111780_j29686813950554_1_alg».proof.Proof.Gen.ReferenceIdeal.Read
import proofs.«111780_j29686813950554_1_alg».proof.Proof.FrameK
import proofs.«111780_j29686813950554_1_alg».proof.Proof.FrameKI
import proofs.«111780_j29686813950554_1_alg».proof.Proof.KRun
import proofs.«111780_j29686813950554_1_alg».proof.Proof.RefIsG
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference is host operations only: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The reference's joined matrices and bias are the kernel's: the same concatenations of the same arguments. -/
theorem catW_bridge (a b c d : Cert.KernelIdeal.S1024x1024.Idx → EReal) :
    Cert.ReferenceIdeal.Read.val_main_v0 (F := Ideal) b a c d = Cert.KernelIdeal.KV.catW a b c d := rfl

theorem catW_bridge' (a b c d : Cert.KernelIdeal.S1024x1024.Idx → EReal) :
    Cert.ReferenceIdeal.Read.val_main_v1 (F := Ideal) b a c d = Cert.KernelIdeal.KV.catW a b c d := rfl

theorem catB_bridge (a b c d : Cert.KernelIdeal.S1024.Idx → EReal) :
    Cert.ReferenceIdeal.Read.val_main_v2 (F := Ideal) b a c d = Cert.KernelIdeal.KV.catB a b c d := rfl

/-- On memories agreeing on the arguments both programs run, and end with the specification's two arrays of the
    arguments: the kernel's by its run read (`KRun`), the reference's by its generated run and `RefIsG`. -/
theorem algebraic : Cert.algebraic_KernelIdeal_ReferenceIdeal := by
  intro m ρ m' ρ' _ hagree
  refine ⟨fun c => Cert.KernelIdeal.KV.RH m c, fun c => Cert.KernelIdeal.KV.RC m c, Cert.KernelIdeal.KV.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v36_eq, Cert.ReferenceIdeal.RefValue.hidden_eq, a0, a1, a2, a3, a4, a5, a6, a7, a8, a9, a10, a11, a12, a13, a14,
      catW_bridge, catW_bridge', catB_bridge]
    rfl
  · obtain ⟨a0, a1, a2, a3, a4, a5, a6, a7, a8, a9, a10, a11, a12, a13, a14⟩ := hagree c
    rw [Cert.ReferenceIdeal.Read.val_main_v34_eq, Cert.ReferenceIdeal.RefValue.cell_eq, a0, a1, a2, a3, a4, a5, a6, a7, a8, a9, a10, a11, a12, a13, a14,
      catW_bridge, catW_bridge', catB_bridge]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
